-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x64 .f32) (main_arg1 : IVec S800000 32) (main_arg2 : IVec S800000 32) (main_arg3 : FVec F S1 .f32) (main_arg4 : FVec F S256x256 .f32) (main_arg5 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x1 : Shape := ⟨2, ![1, 1]⟩
abbrev S50000x256 : Shape := ⟨2, ![50000, 256]⟩
abbrev S1x256 : Shape := ⟨2, ![1, 256]⟩
abbrev S2000x256 : Shape := ⟨2, ![2000, 256]⟩

abbrev nBuf : Space → Nat
  | .hbm => 122
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x1, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S50000x64, .f32⟩
  | .hbm, ⟨89, _⟩ => ⟨S50000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x1, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S50000x256, .f32⟩
  | .hbm, ⟨120, _⟩ => ⟨S1x256, .f32⟩
  | .hbm, ⟨121, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S1 : S_.BroadcastsInDim S1 (![] : Fin 0 → Fin S1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x64_0_1 : S1x1.BroadcastsInDim S50000x64 (![0, 1] : Fin 2 → Fin S50000x64.rank)
  concatenates_S50000x64_S50000x64_S50000x64_S50000x64_S50000x256_d1 : Shape.Concatenates [S50000x64, S50000x64, S50000x64, S50000x64] S50000x256 1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v90) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v91) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v92) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x1 : Shape := ⟨2, ![1, 1]⟩
abbrev S50000x256 : Shape := ⟨2, ![50000, 256]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x1, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S50000x64, .f32⟩
  | .hbm, ⟨89, _⟩ => ⟨S50000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x1, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S50000x256, .f32⟩
  | .hbm, ⟨120, _⟩ => ⟨S50000x256, .f32⟩
  | .hbm, ⟨121, _⟩ => ⟨S1x256, .f32⟩
  | .hbm, ⟨122, _⟩ => ⟨S50000x256, .f32⟩
  | .hbm, ⟨123, _⟩ => ⟨S50000x256, .f32⟩
  | .hbm, ⟨124, _⟩ => ⟨S_, .f32⟩
  | .hbm, ⟨125, _⟩ => ⟨S50000x256, .f32⟩
  | .hbm, ⟨126, _⟩ => ⟨S50000x256, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call1_cst : Ref sig .tc := ⟨.hbm, 124, rfl⟩
abbrev main_call1_v0 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S1 : S_.BroadcastsInDim S1 (![] : Fin 0 → Fin S1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x64_0_1 : S1x1.BroadcastsInDim S50000x64 (![0, 1] : Fin 2 → Fin S50000x64.rank)
  concatenates_S50000x64_S50000x64_S50000x64_S50000x64_S50000x256_d1 : Shape.Concatenates [S50000x64, S50000x64, S50000x64, S50000x64] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.EntryK.lean ====
/-
  The host stretch before the one kernel region, and what the region finds.

  @main first runs 115 host operations — the in-degrees by a scatter-add, their clipped inverse square roots, three
  rounds of the Chebyshev recurrence (each a gather along the edges' sources, a scatter-add onto their targets and a
  few pointwise steps), the four 64-column pieces joined into one 256-column array, and the bias reshaped to one row —
  and then launches the region. `V m c b` is the contents of buffer `b` on core `c` when the region is entered: the
  fold of those operations over the launch memory. No host operation writes an argument array, so the region finds
  each argument as launched.
-/
import proofs.«112919_j28123445854491_1_alg».proof.Proof.Gen.Kernel.Launch
import proofs.«112919_j28123445854491_1_alg».proof.Proof.Gen.Kernel.Skeleton
import proofs.«112919_j28123445854491_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: the launch memory after every host operation. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

end Cert.Kernel.Entry

end
-- ==== Proof.FrameK.lean ====
/-
  The frame of the program: it runs to the end, nothing faults, and the argument arrays end as launched.

  The region is a pipeline over 25 grid points. At point t it stages rows 2000·t … 2000·t+1999 of the joined feature
  array (window 0), the whole weight matrix (window 1) and the one-row bias (window 2) — the last two fetched once, at
  the first point, their block index never moving — runs the body, and writes the body's 2000 × 256 result back to
  rows 2000·t … of the output (window 3). The body loads the three inputs whole, computes one value from them (the
  matmul into a zero accumulator, plus the bias row on every row, clamped below at zero) and stores it over its whole
  output buffer: so after the body each input buffer holds what it held and the output buffer holds that one value
  (`out0_3`). With that as the pipeline's proof data, the library's launch theorem for a host stretch followed by one
  region gives the run (`run_main`): every execution ends, each of the pipeline's arrays at what the data say and
  every other buffer as the region found it. The frame claim reads that run at the six argument arrays.
-/
import proofs.«112919_j28123445854491_1_alg».proof.Proof.EntryK

set_option maxRecDepth 16384

noncomputable section

namespace Cert.Kernel.Frm

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched, its block index has not moved since it was), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The run's post read at the argument arrays: the weight matrix is a staged input, which the pipeline leaves as it
    found it; the other five no window stages; and the region found each as launched. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c)⟩

/-- The frame claim's post from a run to the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m dats hA r h c) h

/-! ## The body's accesses: each buffer whole -/

abbrev rX : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in the output window's buffer -/

/-- The output buffer after the body, from the input blocks: its one store, over the whole buffer, of the body's one
    value. -/
def out0_3 (x0 : Vec F S2000x256 .f32) (x1 : Vec F S256x256 .f32) (x2 : Vec F S1x256 .f32) : Vec F S2000x256 .f32 :=
  View.canon [⟨rX, k0_pay1 (View.ld x0 rX) (View.ld x1 rW) (View.ld x2 rB)⟩]

/-- The one store covers the buffer. -/
theorem cover0_3 (p0 : Vec F S2000x256 .f32) (y : S2000x256.Idx) :
    ∃ pc ∈ ([⟨rX, p0⟩] : List (View.Piece (Elt F) S2000x256 .f32)), y ∈ pc.1.set :=
  View.cover_of_tiled [⟨rX, p0⟩] S2000x256.size (by rfl) y

/-! ## The body's triple -/

set_option maxHeartbeats 1000000 in
/-- The body on whole staging buffers, the inputs' at contents `x0 x1 x2` and the output's at anything, runs to a state
    with the inputs' as they were and the output's at `out0_3 x0 x1 x2`. -/
theorem sound_kernel (c : Dev nD) (E : Set ℕ) (i : grid0.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the three input blocks; nothing else touched, nothing
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.EntryKI.lean ====
/-
  The host stretch before the one kernel region, and what the region finds.

  @main first runs 115 host operations — the in-degrees by a scatter-add, their clipped inverse square roots, three
  rounds of the Chebyshev recurrence (each a gather along the edges' sources, a scatter-add onto their targets and a
  few pointwise steps), the four 64-column pieces joined into one 256-column array, and the bias reshaped to one row —
  and then launches the region. `V m c b` is the contents of buffer `b` on core `c` when the region is entered: the
  fold of those operations over the launch memory. No host operation writes an argument array, so the region finds
  each argument as launched.
-/
import proofs.«112919_j28123445854491_1_alg».proof.Proof.Gen.KernelIdeal.Launch
import proofs.«112919_j28123445854491_1_alg».proof.Proof.Gen.KernelIdeal.Skeleton
import proofs.«112919_j28123445854491_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: the launch memory after every host operation. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

end Cert.KernelIdeal.Entry

end
-- ==== Proof.FrameKI.lean ====
/-
  The frame of the program: it runs to the end, nothing faults, and the argument arrays end as launched.

  The region is a pipeline over 25 grid points. At point t it stages rows 2000·t … 2000·t+1999 of the joined feature
  array (window 0), the whole weight matrix (window 1) and the one-row bias (window 2) — the last two fetched once, at
  the first point, their block index never moving — runs the body, and writes the body's 2000 × 256 result back to
  rows 2000·t … of the output (window 3). The body loads the three inputs whole, computes one value from them (the
  matmul into a zero accumulator, plus the bias row on every row, clamped below at zero) and stores it over its whole
  output buffer: so after the body each input buffer holds what it held and the output buffer holds that one value
  (`out0_3`). With that as the pipeline's proof data, the library's launch theorem for a host stretch followed by one
  region gives the run (`run_main`): every execution ends, each of the pipeline's arrays at what the data say and
  every other buffer as the region found it. The frame claim reads that run at the six argument arrays.
-/
import proofs.«112919_j28123445854491_1_alg».proof.Proof.EntryKI

set_option maxRecDepth 16384

noncomputable section

namespace Cert.KernelIdeal.Frm

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched, its block index has not moved since it was), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The run's post read at the argument arrays: the weight matrix is a staged input, which the pipeline leaves as it
    found it; the other five no window stages; and the region found each as launched. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c)⟩

/-- The frame claim's post from a run to the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m dats hA r h c) h

/-! ## The body's accesses: each buffer whole -/

abbrev rX : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in the output window's buffer -/

/-- The output buffer after the body, from the input blocks: its one store, over the whole buffer, of the body's one
    value. -/
def out0_3 (x0 : Vec F S2000x256 .f32) (x1 : Vec F S256x256 .f32) (x2 : Vec F S1x256 .f32) : Vec F S2000x256 .f32 :=
  View.canon [⟨rX, k0_pay1 (View.ld x0 rX) (View.ld x1 rW) (View.ld x2 rB)⟩]

/-- The one store covers the buffer. -/
theorem cover0_3 (p0 : Vec F S2000x256 .f32) (y : S2000x256.Idx) :
    ∃ pc ∈ ([⟨rX, p0⟩] : List (View.Piece (Elt F) S2000x256 .f32)), y ∈ pc.1.set :=
  View.cover_of_tiled [⟨rX, p0⟩] S2000x256.size (by rfl) y

/-! ## The body's triple -/

set_option maxHeartbeats 1000000 in
/-- The body on whole staging buffers, the inputs' at contents `x0 x1 x2` and the output's at anything, runs to a state
    with the inputs' as they were and the output's at `out0_3 x0 x1 x2`. -/
theorem sound_kernel (c : Dev nD) (E : Set ℕ) (i : grid0.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the three input blocks; nothing else touched, nothing
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.Spec.lean ====
/-
  What the program computes after its graph propagation: a dense layer with a rectifier.

  For a feature array `X` with 256 columns, a weight matrix `W` (256 × 256) and a bias `b` (256 entries), entry
  (r, c) of the result is max(Σ_k X[r,k] · W[k,c] + b[c], 0), read on the extended reals: the sum runs over the 256
  columns of `X` in order, the products and the sum are the extended reals' own. The number of rows is a
  parameter, so that the same formula speaks of the whole 50000-row array and of one 2000-row block of it.
  A row of the result depends on the same row of `X` only: restricting `X` to a band of rows restricts the result to
  that band (`lin_rows`).
-/
import Idealize.ShloMosaic.PureOps.Ideal
import Idealize.ShloMosaic.Lib.ValueIdx

noncomputable section

namespace Cert.ChebSpec

open Idealize.ShloMosaic Idealize.ShloMosaic.ValueIdx

/-- Entry (r, c) of the dense layer: max(Σ_k X[r,k] · W[k,c] + b[c], 0). -/
def lin {N : Nat} (X : (⟨2, ![N, 256]⟩ : Shape).Idx → EReal) (W : (⟨2, ![256, 256]⟩ : Shape).Idx → EReal)
    (b : (⟨1, ![256]⟩ : Shape).Idx → EReal) : (⟨2, ![N, 256]⟩ : Shape).Idx → EReal :=
  fun i => max ((∑ k : Fin 256, X (ix2 (⟨(i 0).val, idx2_lt0 i⟩ : Fin N) k) * W (ix2 k (⟨(i 1).val, idx2_lt1 i⟩ : Fin 256)))
    + b (ix1 (⟨(i 1).val, idx2_lt1 i⟩ : Fin 256))) 0

/-- The formula at explicit coordinates. -/
theorem lin_ix2 {N : Nat} (X : (⟨2, ![N, 256]⟩ : Shape).Idx → EReal) (W : (⟨2, ![256, 256]⟩ : Shape).Idx → EReal)
    (b : (⟨1, ![256]⟩ : Shape).Idx → EReal) (r : Fin N) (c : Fin 256) :
    lin X W b (ix2 r c) = max ((∑ k : Fin 256, X (ix2 r k) * W (ix2 k c)) + b (ix1 c)) 0 := rfl

/-- A one-row bias array read as a vector: entry c is the row's entry (0, c). -/
def row0 (b : (⟨2, ![1, 256]⟩ : Shape).Idx → EReal) : (⟨1, ![256]⟩ : Shape).Idx → EReal :=
  fun j => b (ix2 (0 : Fin 1) (⟨(j 0).val, (j 0).isLt⟩ : Fin 256))

theorem row0_ix1 (b : (⟨2, ![1, 256]⟩ : Shape).Idx → EReal) (c : Fin 256) : row0 b (ix1 c) = b (ix2 (0 : Fin 1) c) := rfl

/-- Rows are independent: if the block `x` holds rows `off, off+1, …` of `X`, the layer of the block at (p, c) is the
    layer of the whole at (off + p, c). -/
theorem lin_rows {N M : Nat} (X : (⟨2, ![N, 256]⟩ : Shape).Idx → EReal) (x : (⟨2, ![M, 256]⟩ : Shape).Idx → EReal)
    (W : (⟨2, ![256, 256]⟩ : Shape).Idx → EReal) (b : (⟨1, ![256]⟩ : Shape).Idx → EReal)
    (p : Fin M) (r : Fin N) (c : Fin 256) (hx : ∀ k : Fin 256, x (ix2 p k) = X (ix2 r k)) :
    lin x W b (ix2 p c) = lin X W b (ix2 r c) := by
  rw [lin_ix2, lin_ix2]
  simp only [hx]

end Cert.ChebSpec

end
-- ==== Proof.Payload.lean ====
/-
  The body's one value, read at an entry.
-/
import proofs.«112919_j28123445854491_1_alg».proof.Proof.Gen.KernelIdeal.Skeleton
import proofs.«112919_j28123445854491_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Cert.KernelIdeal Cert.KernelIdeal.Gen Cert.ChebSpec
open Idealize.ShloMosaic Idealize.ShloMosaic.ValueIdx

/-! ## The product's operand indices, coordinate by coordinate

At output index `i` = (r, c) and contraction index k the left operand is read at (r, k) and the right one at (k, c). -/

theorem lhs_pay_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_pay_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_pay_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_pay_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into the zero accumulator, at (p, q): the sum over the 256 contraction positions k, in order, of
    lhs[p,k] · rhs[k,q]. -/
theorem mm_apply (y : FVec Ideal S2000x256 .bf16) (z : FVec Ideal S256x256 .bf16) (p : Fin 2000) (q : Fin 256) :
    matmul (F := Ideal) dot_S2000x256_S256x256_S2000x256_1_0_0_1_n_n none y z (constant (F := Ideal) S2000x256 .f32 0x00000000#32) (ix2 p q)
      = ∑ k : Fin 256, y (ix2 p k) * z (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_pay_0 _ _
    | ⟨1, _⟩ => exact (lhs_pay_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_pay_0 _ _).trans hk
    | ⟨1, _⟩ => exact rhs_pay_1 _ _)
  rw [el, er]

/-- The one-row bias spread over the 2000 rows, at (p, q): the row's entry (0, q). -/
theorem bias_apply (b : Vec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- At the ideal instance the body's value at row p, column q of its block is the dense layer of the loaded feature
    block, the loaded weights and the loaded bias row, at (p, q). -/
theorem pay_eq (x : Vec Ideal S2000x256 .f32) (w : Vec Ideal S256x256 .f32) (b : Vec Ideal S1x256 .f32) (p : Fin 2000) (q : Fin 256) :
    k0_pay1 (F := Ideal) x w b (ix2 p q) = lin (N := 2000) x w (row0 b) (ix2 p q) := by
  unfold k0_pay1
  rw [lin_ix2, row0_ix1, shapeCast_self, shapeCast_self, maximumf_apply, addf_apply, broadcast_apply, mm_apply, bias_apply]
  simp only [truncf_apply]
  show max _ (Ideal.ofBits .f32 0x00000000#32) = _
  rw [Ideal.ofBits_zero_f32]

end Cert.KernelIdeal.Payload

end
-- ==== Proof.KValue.lean ====
/-
  What the kernel program's result array holds after the run, at the ideal instance.

  Grid point t writes back rows 2000·t … 2000·t+1999 of the result, and what it writes is the body's value of its three
  input blocks: rows 2000·t … of the joined feature array, the whole weight matrix, the whole bias row. The body's value
  at (p, q) is the dense layer of those blocks at (p, q), and the layer's rows are independent, so what point t writes
  is rows 2000·t … of the dense layer of the WHOLE feature array. The 25 blocks tile the 50000 rows, so the array ends
  holding that layer everywhere.
-/
import proofs.«112919_j28123445854491_1_alg».proof.Proof.FrameKI
import proofs.«112919_j28123445854491_1_alg».proof.Proof.Payload
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Entry Cert.KernelIdeal.Frm Cert.ChebSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 25 points. -/
theorem hN : cfg0.N = 25 := N_0

/-- The printed index maps over the grid: the feature window and the result window sit at block row t, column 0; the
    weights' and the bias row's block index never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The windows' blocks read off any array -/

/-- Entry (p, k) of the feature window's block at point t is entry (2000·t + p, k) of the array. -/
theorem read_blk0 (A : S50000x256.Idx → EReal) (t : Fin cfg0.N) (p : Fin 2000) (k : Fin 256) (r : Fin 50000)
    (hr : r.val = t.val * 2000 + p.val) :
    (((cfg0.win 0).blk t).view.read (Elt Ideal) A : S2000x256.Idx → EReal) (ix2 p k) = A (ix2 r k) := by
  obtain ⟨e0, e1, -⟩ := idx_facts t
  rw [View.read_apply]
  refine congrArg A ?_
  funext a; apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The weights' block at any point is the whole matrix. -/
theorem read_blk1 (A : S256x256.Idx → EReal) (t : Fin cfg0.N) :
    (((cfg0.win 1).blk t).view.read (Elt Ideal) A : S256x256.Idx → EReal) = A := by
  obtain ⟨-, -, e2, e3, -⟩ := idx_facts t
  funext y
  rw [View.read_apply]
  refine congrArg A ?_
  funext a; apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias row's block at any point is the whole row. -/
theorem read_blk2 (A : S1x256.Idx → EReal) (t : Fin cfg0.N) :
    (((cfg0.win 2).blk t).view.read (Elt Ideal) A : S1x256.Idx → EReal) = A := by
  obtain ⟨-, -, -, -, e4, e5, -⟩ := idx_facts t
  funext y
  rw [View.read_apply]
  refine congrArg A ?_
  funext a; apply Fin.ext
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- Entry (p, q) of the result window's block at point t sits at (2000·t + p, q) of the array. -/
theorem emb_blk3 (t : Fin cfg0.N) (p : Fin 2000) (q : Fin 256) (r : Fin 50000) (hr : r.val = t.val * 2000 + p.val) :
    (((cfg0.win 3).blk t).view.emb (ix2 p q : S2000x256.Idx) : S50000x256.Idx) = ix2 r q := by
  obtain ⟨-, -, -, -, -, -, e6, e7⟩ := idx_facts t
  funext a; apply Fin.ext
  match a with
  | ⟨0, _⟩ => show win0_3.index t (0 : Fin 2) * 2000 + 1 * p.val = r.val; rw [e6, hr]; omega
  | ⟨1, _⟩ => show win0_3.index t (1 : Fin 2) * 256 + 1 * q.val = q.val; rw [e7]; omega

/-! ## What a point writes back -/

/-- The dense layer of the arrays the region finds: the joined features, the weights, the bias row. -/
def result (c : Dev nD) : S50000x256.Idx → EReal :=
  lin (N := 50000) (V m c main_v90) (V m c main_arg4) (row0 (V m c main_v91))

/-- The body's value of blocks read off arrays `A0 A1 A2`, at (p, q) of point t's block, is the dense layer of the
    arrays at (2000·t + p, q). -/
theorem body_blocks (A0 : S50000x256.Idx → EReal) (A1 : S256x256.Idx → EReal) (A2 : S1x256.Idx → EReal)
    (t : Fin cfg0.N) (p : Fin 2000) (q : Fin 256) (r : Fin 50000) (hr : r.val = t.val * 2000 + p.val) :
    k0_pay1 (F := Ideal) (((cfg0.win 0).blk t).view.read (Elt Ideal) A0) (((cfg0.win 1).blk t).view.read (Elt Ideal) A1)
        (((cfg0.win 2).blk t).view.read (Elt Ideal) A2) (ix2 p q)
      = lin (N := 50000) A0 A1 (row0 A2) (ix2 r q) := by
  refine (Cert.KernelIdeal.Payload.pay_eq (((cfg0.win 0).blk t).view.read (Elt Ideal) A0) (((cfg0.win 1).blk t).view.read (Elt Ideal) A1)
    (((cfg0.win 2).blk t).view.read (Elt Ideal) A2) p q).trans ?_
  rw [read_blk1 A1 t, read_blk2 A2 t]
  exact lin_rows A0 _ A1 (row0 A2) p r q (fun k => read_blk0 A0 t p k r hr)

/-- What point t writes back to the result array is block t of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have ht : t.val < 25 := lt_of_lt_of_eq t.isLt hN
  have hr : t.val * 2000 + p.val < 50000 := by have := p.isLt; omega
  rw [View.read_apply, emb_blk3 t p q ⟨t.val * 2000 + p.val, hr⟩ rfl]
  exact body_blocks (V m c main_v90) (V m c main_arg4) (V m c main_v91) t p q ⟨t.val * 2000 + p.val, hr⟩ rfl

/-! ## The blocks tile the array -/

/-- An index of the result array is in point t's block iff each coordinate is in the block's range on its axis. -/
theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v92).slice (win0_3.rect t)).set ↔ _
  rw [View.set_slice_whole, Rect.mem_set_unit]
  exact Iff.rfl

/-- Row r of the result lies in the block of point r / 2000. -/
theorem cover3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by rw [hN]; omega⟩
  obtain ⟨-, -, -, -, -, -, e6, e7⟩ := idx_facts t
  have e6' : win0_3.index t (0 : Fin 2) = (i 0).val / 2000 := e6
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array after the run is `result`. -/
theorem final3 (c : Dev nD) : (dats m 0 c).arrAt 3 cfg0.N = result m c :=
  (dats m 0 c).arrAt_eq_of_cover 3 (result m c) (fun t _ => flushed_eq m c t) cover3

/-! ## The run, read -/

/-- Every execution ends with the result array at the dense layer of what the region found and the arguments as
    launched. -/
theorem run_value : θ_run defs (onTc (τ := τ) (main (F := Ideal))) ⟨m, fun _ => 0, ρ⟩ fun r => ∀ c : Dev nD,
      r.2.mem ((c.tc : Thread nD τ).loc main_v92) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 3).trans (final3 m c), kept_args m (dats m) (A_eq m) r h c⟩)
    (run_main m ρ)

end Cert.KernelIdeal.KValue

end
-- ==== Proof.RefValue.lean ====
/-
  The reference's result is the dense layer of its joined feature array.
-/
import proofs.«112919_j28123445854491_1_alg».proof.Proof.Gen.ReferenceIdeal.Read
import proofs.«112919_j28123445854491_1_alg».proof.Proof.Spec

noncomputable section

namespace Cert.ReferenceIdeal.RefValue

open Cert.ReferenceIdeal Cert.ReferenceIdeal.Read Cert.ChebSpec
open Idealize.ShloMosaic Idealize.ShloMosaic.ValueIdx

/-- At the ideal instance the reference's result — its `dot_general` of the joined feature array with the weights, plus
    the bias broadcast over the rows, clamped below at zero — is the dense layer of that array, entry by entry. -/
theorem ref_eq (x0 : (⟨S50000x64, .f32⟩ : BufTy).Contents (Elt Ideal)) (x1 x2 : (⟨S800000, .i32⟩ : BufTy).Contents (Elt Ideal))
    (x3 : (⟨S1, .f32⟩ : BufTy).Contents (Elt Ideal)) (x4 : (⟨S256x256, .f32⟩ : BufTy).Contents (Elt Ideal))
    (x5 : (⟨S256, .f32⟩ : BufTy).Contents (Elt Ideal)) :
    val_main_v95 (F := Ideal) x0 x1 x2 x3 x4 x5 = lin (N := 50000) (val_main_v90 (F := Ideal) x0 x1 x2 x3) x4 x5 := by
  funext i
  obtain ⟨r, c, rfl⟩ : ∃ (r : Fin 50000) (c : Fin 256), i = ix2 r c := ⟨i 0, i 1, eq_ix2 i⟩
  rw [val_main_v95_apply, val_main_v94_apply, val_main_v91_apply, val_main_v93_apply, val_main_v92_apply,
    val_main_call1_v0_apply, val_main_call1_cst_apply]
  generalize val_main_v90 (F := Ideal) x0 x1 x2 x3 = X
  -- the contraction reads row r of the features against column c of the weights
  have hl : ∀ k : Fin 256, lidx_main_v91 (ix2 r c) k = ix2 r k := fun k =>
    funext fun a => Fin.ext (by match a with | ⟨0, _⟩ => rfl | ⟨1, _⟩ => rfl)
  have hr : ∀ k : Fin 256, ridx_main_v91 (ix2 r c) k = ix2 k c := fun k =>
    funext fun a => Fin.ext (by match a with | ⟨0, _⟩ => rfl | ⟨1, _⟩ => rfl)
  -- the bias, broadcast over the rows, is read at its entry c
  have hb : idx_main_v92 (idx_main_v93 (ix2 r c)) = ix1 c :=
    funext fun a => Fin.ext (by match a with | ⟨0, _⟩ => rfl)
  simp only [hl, hr, hb, lin_ix2, Ideal.maximumf_def, Ideal.addf_def, Ideal.ofBits_def, Ideal.ofBits_zero_f32]

end Cert.ReferenceIdeal.RefValue

end
-- ==== Proof.Prefix.lean ====
/-
  The two programs compute the joined feature array by the same host operations.
-/
import proofs.«112919_j28123445854491_1_alg».proof.Proof.EntryKI
import proofs.«112919_j28123445854491_1_alg».proof.Proof.Gen.ReferenceIdeal.Read
import proofs.«112919_j28123445854491_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Prefix

open Cert.KernelIdeal Cert.KernelIdeal.Gen Cert.KernelIdeal.Entry Cert.ChebSpec
open Idealize.ShloMosaic Idealize.ShloMosaic.TcCoe Idealize.ShloMosaic.ValueIdx Idealize.SL.Sem

variable (m : (ℓ : Loc nD τ sig) → Buf (Elt Ideal) ℓ)

/-! ## The stretches, one at a time

The host operations come in three stretches: the in-degrees (seven operations), their clip from below by one (three),
and everything else (a hundred and five: the inverse square roots, the three rounds of the recurrence, the join, the
bias). Each stretch is read from ARBITRARY contents before it, so that what a later stretch says of an earlier one's
results is an equation between names and no stretch's term is carried into the next. -/

/-- The in-degrees: what the first stretch leaves in `main_v3`. -/
theorem st0_v3 (V0 : Valuation τ sig (Elt Ideal)) :
    (StableHlo.after hostOps0 V0 (Proc.devRef .tc main_v3) : S50000.Idx → EReal)
      = Cert.ReferenceIdeal.Read.val_main_v3 (F := Ideal) (V0 (Proc.devRef .tc main_arg2)) := by
  simp only [hostOps0]
  after_results_simp
  rfl

/-- The constant one the clip takes. -/
theorem st0_cst1 (V0 : Valuation τ sig (Elt Ideal)) :
    (StableHlo.after hostOps0 V0 (Proc.devRef .tc main_cst_1) : S_.Idx → EReal)
      = Cert.ReferenceIdeal.Read.val_main_cst_1 (F := Ideal) := by
  simp only [hostOps0]
  after_results_simp
  rfl

/-- The clip, from any contents: the larger of the constant and the in-degree. -/
theorem clip_ops (W : Valuation τ sig (Elt Ideal)) :
    @Eq (FVec Ideal S50000 .f32) (StableHlo.after hostOps0_1 W (Proc.devRef .tc main_v4))
      (maximumf (F := Ideal) (φ := .f32) (broadcastInDim S50000 ![] bcast_S_S50000 (id (W (Proc.devRef .tc main_cst_1) : FVec Ideal S_ .f32)))
          (W (Proc.devRef .tc main_v3))) := by
  simp only [hostOps0_1]
  after_results_simp
  rfl

/-- The first two stretches leave the arguments as they were. -/
theorem pre_args (V0 : Valuation τ sig (Elt Ideal)) :
    StableHlo.after hostOps0_1 (StableHlo.after hostOps0 V0) (Proc.devRef .tc main_arg0) = V0 (Proc.devRef .tc main_arg0)
    ∧ StableHlo.after hostOps0_1 (StableHlo.after hostOps0 V0) (Proc.devRef .tc main_arg1) = V0 (Proc.devRef .tc main_arg1)
    ∧ StableHlo.after hostOps0_1 (StableHlo.after hostOps0 V0) (Proc.devRef .tc main_arg2) = V0 (Proc.devRef .tc main_arg2)
    ∧ StableHlo.after hostOps0_1 (StableHlo.after hostOps0 V0) (Proc.devRef .tc main_arg3) = V0 (Proc.devRef .tc main_arg3) := by
  simp only [hostOps0, hostOps0_1]
  refine ⟨?_, ?_, ?_, ?_⟩ <;> after_results_simp

/-- The clipped in-degrees after the first two stretches. -/
theorem pre_v4 (V0 : Valuation τ sig (Elt Ideal)) :
    (StableHlo.after hostOps0_1 (StableHlo.after hostOps0 V0) (Proc.devRef .tc main_v4) : S50000.Idx → EReal)
      = Cert.ReferenceIdeal.Read.val_main_v4 (F := Ideal) (V0 (Proc.devRef .tc main_arg2)) := by
  have h3 := st0_v3 V0
  have hc := st0_cst1 V0
  generalize StableHlo.after hostOps0 V0 = W1 at h3 hc ⊢
  rw [clip_ops W1, h3, hc]
  rfl

/-- A line of operations run in two parts: its first n operations, then the rest from what they leave. -/
theorem after_take_drop {Val : EltTy → Type} (n : Nat) (l : List (HloOp τ sig Val)) (V0 : Valuation τ sig Val) :
    StableHlo.after l V0 = StableHlo.after (l.drop n) (StableHlo.after (l.take n) V0) := by
  rw [← StableHlo.after_append, List.take_append_drop]

/-- The last two operations of the long stretch: the join of the four pieces, and the bias reshaped. -/
theorem last_two :
    (hostOps0_2 : List (HloOp τ sig (Elt Ideal))).drop 103
      = [ StableHlo.nary ![main_arg0, main_v33, main_v61, main_v89] main_v90 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
          StableHlo.reshape main_arg5 main_v91 rfl shapeCasts_S256_S1x256 ] := rfl

set_option maxHeartbeats 40000000 in
/-- The long stretch from any contents in which `main_v4` holds the clipped in-degrees: what it leaves in `main_v33`. -/
theorem seg_v33 (W : Valuation τ sig (Elt Ideal))
    (h4 : (W (Proc.devRef .tc main_v4) : S50000.Idx → EReal) = Cert.ReferenceIdeal.Read.val_main_v4 (F := Ideal) (W (Proc.devRef .tc main_arg2))) :
    (StableHlo.after hostOps0_2 W (Proc.devRef .tc main_v33) : S50000x64.Idx → EReal)
      = Cert.ReferenceIdeal.Read.val_main_v33 (F := Ideal) (W (Proc.devRef .tc main_arg0)) (W (Proc.devRef .tc main_arg1)) (W (Proc.devRef .tc main_arg2)) (W (Proc.devRef .tc main_arg3)) := by
  simp only [hostOps0_2]
  after_results_simp
  rw [h4]
  rfl

set_option maxHeartbeats 40000000 in
/-- The long stretch from any contents in which `main_v4` holds the clipped in-degrees: what it leaves in `main_v61`. -/
theorem seg_v61 (W : Valuation τ sig (Elt Ideal))
    (h4 : (W (Proc.devRef .tc main_v4) : S50000.Idx → EReal) = Cert.ReferenceIdeal.Read.val_main_v4 (F := Ideal) (W (Proc.devRef .tc main_arg2))) :
    (StableHlo.after hostOps0_2 W (Proc.devRef .tc main_v61) : S50000x64.Idx → EReal)
      = Cert.ReferenceIdeal.Read.val_main_v61 (F := Ideal) (W (Proc.devRef .tc main_arg0)) (W (Proc.devRef .tc main_arg1)) (W (Proc.devRef .tc main_arg2)) (W (Proc.devRef .tc main_arg3)) := by
  simp only [hostOps0_2]
  after_results_simp
  rw [h4]
  rfl

set_option maxHeartbeats 40000000 in
/-- The long stretch from any contents in which `main_v4` holds the clipped in-degrees: what it leaves in `main_v89`. -/
theorem seg_v89 (W : Valuation τ sig (Elt Ideal))
    (h4 : (W (Proc.devRef .tc main_v4) : S50000.Idx → EReal) = Cert.ReferenceIdeal.Read.val_main_v4 (F := Ideal) (W (Proc.devRef .tc main_arg2))) :
    (StableHlo.after hostOps0_2 W (Proc.devRef .tc main_v89) : S50000x64.Idx → EReal)
      = Cert.ReferenceIdeal.Read.val_main_v89 (F := Ideal) (W (Proc.devRef .tc main_arg0)) (W (Proc.devRef .tc main_arg1)) (W (Proc.devRef .tc main_arg2)) (W (Proc.devRef .tc main_arg3)) := by
  simp only [hostOps0_2]
  after_results_simp
  rw [h4]
  rfl

set_option maxHeartbeats 40000000 in
/-- The long stretch leaves the first argument as it was. -/
theorem seg_arg0 (W : Valuation τ sig (Elt Ideal)) :
    StableHlo.after hostOps0_2 W (Proc.devRef .tc main_arg0) = W (Proc.devRef .tc main_arg0) := by
  simp only [hostOps0_2]
  after_results_simp

set_option maxHeartbeats 40000000 in
/-- The long stretch from any contents in which `main_v4` holds the clipped in-degrees: the joined array it leaves
    is the reference's stage, the four pieces being the reference's. -/
theorem seg_v90 (W : Valuation τ sig (Elt Ideal))
    (h4 : (W (Proc.devRef .tc main_v4) : S50000.Idx → EReal) = Cert.ReferenceIdeal.Read.val_main_v4 (F := Ideal) (W (Proc.devRef .tc main_arg2))) :
    (StableHlo.after hostOps0_2 W (Proc.devRef .tc main_v90) : S50000x256.Idx → EReal)
      = Cert.ReferenceIdeal.Read.val_main_v90 (F := Ideal) (W (Proc.devRef .tc main_arg0)) (W (Proc.devRef .tc main_arg1)) (W (Proc.devRef .tc main_arg2)) (W (Proc.devRef .tc main_arg3)) := by
  have e0 := seg_arg0 W
  have e33 := seg_v33 W h4
  have e61 := seg_v61 W h4
  have e89 := seg_v89 W h4
  have hs := after_take_drop 103 (hostOps0_2 : List (HloOp τ sig (Elt Ideal))) W
  rw [last_two] at hs
  rw [hs] at e0 e33 e61 e89 ⊢
  generalize StableHlo.after (List.take 103 (hostOps0_2 : List (HloOp τ sig (Elt Ideal)))) W = W3 at e0 e33 e61 e89 ⊢
  simp only [StableHlo.after_cons, StableHlo.after_nil] at e0 e33 e61 e89 ⊢
  simp (disch := decide) only [StableHlo.reshape_result_ne', StableHlo.nary_result_ne'] at e0 e33 e61 e89
  simp (disch := decide) only [StableHlo.reshape_result_ne', StableHlo.nary4_result']
  rw [e0, e33, e61, e89]
  rfl

set_option maxHeartbeats 40000000 in
/-- The joined feature array the region finds is the reference's: both programs apply the same host operations, in
    the same order, to the same four arguments. -/
theorem xt_eq (c : Dev nD) :
    (V m c main_v90 : S50000x256.Idx → EReal)
      = Cert.ReferenceIdeal.Read.val_main_v90 (F := Ideal) (m ((c.tc : Thread nD τ).loc main_arg0)) (m ((c.tc : Thread nD τ).loc main_arg1))
          (m ((c.tc : Thread nD τ).loc main_arg2)) (m ((c.tc : Thread nD τ).loc main_arg3)) := by
  have hp := pre_v4 (fun b => m (c, b))
  obtain ⟨a0, a1, a2, a3⟩ := pre_args (fun b => m (c, b))
  have key := seg_v90 (StableHlo.after hostOps0_1 (StableHlo.after hostOps0 (fun b => m (c, b)))) (by rw [a2]; exact hp)
  rw [a0, a1, a2, a3] at key
  dsimp only [V]
  simp only [List.flatten_cons, List.flatten_nil, List.append_nil, StableHlo.after_append]
  exact key

set_option maxHeartbeats 40000000 in
/-- The bias array the region finds is the bias argument with a leading axis of size one added. -/
theorem bias_shape (c : Dev nD) :
    (V m c main_v91 : S1x256.Idx → EReal)
      = shapeCast S1x256 (m ((c.tc : Thread nD τ).loc main_arg5) : S256.Idx → EReal) shapeCasts_S256_S1x256 := by
  dsimp only [V]
  simp only [hostOps0, hostOps0_1, hostOps0_2, List.flatten_cons, List.flatten_nil, List.append_nil, List.cons_append,
    List.nil_append]
  after_results_simp
  rfl

/-- The bias row the region finds is the bias argument, reshaped: its entry (0, q) is the argument's entry q. -/
theorem bias_eq (c : Dev nD) : row0 (V m c main_v91 : S1x256.Idx → EReal) = (m ((c.tc : Thread nD τ).loc main_arg5) : S256.Idx → EReal) := by
  rw [bias_shape]
  funext j
  obtain ⟨q, rfl⟩ : ∃ q : Fin 256, j = ix1 q := ⟨j 0, eq_ix1 j⟩
  rw [row0_ix1]
  exact shapeCast_a_1a_apply _ shapeCasts_S256_S1x256 (0 : Fin 1) q

end Cert.KernelIdeal.Prefix

end
-- ==== Proof.lean ====
/-
  The certificate of the Chebyshev graph convolution's dense layer.

  Both programs first propagate the signal over the graph with the same host operations (in-degrees by a scatter-add,
  their clipped inverse square roots, three rounds of the Chebyshev recurrence, each a gather along the edges' sources
  and a scatter-add onto their targets) and join the four 64-column pieces into one 50000 × 256 array X. The reference
  then takes max(X·W + b, 0) with one `dot_general`; the kernel program computes the same in a pipelined region of 25
  grid points, each producing 2000 rows: a matmul of the rows' block with W into a zero accumulator (the operands
  narrowed to bf16 first, which is the identity on the extended reals), plus the bias row, clamped below at zero.

  Over the extended reals both results are, entry by entry, max(Σ_k X[r,k]·W[k,c] + b[c], 0) with the sum over k in
  the same order (`Cert.ChebSpec.lin`): the reference's by reading its last five operations at an index, the
  kernel's because each grid point writes its band of rows of that function and the bands tile the array. The two X
  are one term of the four arguments the propagation reads. No law of the extended reals beyond `0 + x = x` is used,
  so the precondition is never opened.

  The three frames: the reference is a host program, whose run is read back operation by operation; the kernel
  program, at the word level and idealized alike, is a host stretch followed by one region whose body loads its
  inputs whole and stores one value over its whole output buffer. Nothing was rewritten in printing the idealized
  program, so `preserves` asks nothing.
-/
import proofs.«112919_j28123445854491_1_alg».proof.Defs
import proofs.«112919_j28123445854491_1_alg».proof.Proof.Gen.Kernel
import proofs.«112919_j28123445854491_1_alg».proof.Proof.Gen.KernelIdeal
import proofs.«112919_j28123445854491_1_alg».proof.Proof.Gen.ReferenceIdeal
import proofs.«112919_j28123445854491_1_alg».proof.Proof.Gen.Pre_finite_inputs
import proofs.«112919_j28123445854491_1_alg».proof.Proof.FrameK
import proofs.«112919_j28123445854491_1_alg».proof.Proof.KValue
import proofs.«112919_j28123445854491_1_alg».proof.Proof.RefValue
import proofs.«112919_j28123445854491_1_alg».proof.Proof.Prefix
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Frm.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result at the dense layer of the propagated features, the weights and the
    bias: the kernel program's by its blocks, the reference's by its last operations read at an index; the propagated
    features are one term of the arguments on both sides, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ChebSpec.lin (N := 50000)
      (Cert.ReferenceIdeal.Read.val_main_v90 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KValue.run_value m ρ)
    unfold Cert.KernelIdeal.KValue.result
    rw [Cert.KernelIdeal.Prefix.xt_eq m c, Cert.KernelIdeal.Prefix.bias_eq m c, Cert.KernelIdeal.Entry.V_main_arg4 m c]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, Cert.ReferenceIdeal.RefValue.ref_eq]
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
